-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S13x1024 : Shape := ⟨2, ![13, 1024]⟩
abbrev S_ : Shape := ⟨0, ![]⟩

class Facts : Prop where
  bcast_S_S13x1024 : S_.BroadcastsInDim S13x1024 (![] : Fin 0 → Fin S13x1024.rank)
  reducesTo_S13x1024_S_d0_1 : S13x1024.ReducesTo [0, 1] S_
  h_S_ : 0 < S_.numel

variable [Facts]

def fn {F : FTy → Type} [FloatOps F] (main_arg0 : IVec S4x8192 32) (main_arg1 : FVec F S13x1024 .f32) : IVec S_ 1 :=
  let main_v0 : FVec F S13x1024 .f32 := Host.absf main_arg1
  let main_cst : FVec F S_ .f32 := constant S_ .f32 0x7F800000#32
  let main_v1 : FVec F S13x1024 .f32 := broadcastInDim S13x1024 ![] bcast_S_S13x1024 main_cst
  let main_v2 : IVec S13x1024 1 := cmpf .olt main_v0 main_v1
  let main_c : IVec S_ 1 := constantI S_ 1 1#1
  let main_v3 : IVec S_ 1 := (fun x v => Host.reduce IntOp.andi x v reducesTo_S13x1024_S_d0_1 h_S_) main_v2 main_c
  main_v3
-- ==== Kernel.lean ====
abbrev S4x8192 : Shape := ⟨2, ![4, 8192]⟩
abbrev S13x1024 : Shape := ⟨2, ![13, 1024]⟩
abbrev S39x1024 : Shape := ⟨2, ![39, 1024]⟩
abbrev S4x8192x1024 : Shape := ⟨3, ![4, 8192, 1024]⟩
abbrev S4x1024 : Shape := ⟨2, ![4, 1024]⟩
abbrev S4x1024x1024 : Shape := ⟨3, ![4, 1024, 1024]⟩
abbrev S1x13 : Shape := ⟨2, ![1, 13]⟩
abbrev S13 : Shape := ⟨1, ![13]⟩
abbrev S39 : Shape := ⟨1, ![39]⟩
abbrev S4x1024x1 : Shape := ⟨3, ![4, 1024, 1]⟩
abbrev S1x1x39 : Shape := ⟨3, ![1, 1, 39]⟩
abbrev S4x1024x39 : Shape := ⟨3, ![4, 1024, 39]⟩
abbrev S4096x39 : Shape := ⟨2, ![4096, 39]⟩
abbrev S4096x1024 : Shape := ⟨2, ![4096, 1024]⟩

abbrev nBuf : Space → Nat
  | .hbm => 11
  | .vmem => 5
  | .smem => 0
  | _ => 0

abbrev bufTy : (tb : Table) → Fin (tcTables nBuf tb) → BufTy
  | .hbm, ⟨0, _⟩ => ⟨S4x8192, .i32⟩
  | .hbm, ⟨1, _⟩ => ⟨S13x1024, .f32⟩
  | .hbm, ⟨2, _⟩ => ⟨S13x1024, .bf16⟩
  | .hbm, ⟨3, _⟩ => ⟨S13x1024, .f32⟩
  | .hbm, ⟨4, _⟩ => ⟨S13x1024, .f32⟩
  | .hbm, ⟨5, _⟩ => ⟨S13x1024, .bf16⟩
  | .hbm, ⟨6, _⟩ => ⟨S13x1024, .f32⟩
  | .hbm, ⟨7, _⟩ => ⟨S13x1024, .f32⟩
  | .hbm, ⟨8, _⟩ => ⟨S13x1024, .bf16⟩
  | .hbm, ⟨9, _⟩ => ⟨S39x1024, .bf16⟩
  | .hbm, ⟨10, _⟩ => ⟨S4x8192x1024, .f32⟩
  | .local _ .vmem, ⟨0, _⟩ => ⟨S4x1024, .i32⟩
  | .local _ .vmem, ⟨1, _⟩ => ⟨S4x1024, .i32⟩
  | .local _ .vmem, ⟨2, _⟩ => ⟨S39x1024, .bf16⟩
  | .local _ .vmem, ⟨3, _⟩ => ⟨S4x1024x1024, .f32⟩
  | .local _ .vmem, ⟨4, _⟩ => ⟨S4x1024x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  concatenates_S13x1024_S13x1024_S13x1024_S39x1024_d0 : Shape.Concatenates [S13x1024, S13x1024, S13x1024] S39x1024 0
  inb_S4x1024_S4x1024_0_0 : ∀ a, (![0, 0] : Fin 2 → Nat) a + S4x1024.size a ≤ S4x1024.size a
  h_S4x1024 : 0 < S4x1024.numel
  iota_S1x13_d1_w32 : S1x13.Iotas .tc 32 [1]
  shapeCasts_S1x13_S13 : S1x13.ShapeCasts S13
  concatenates_S13_S13_S13_S39_d0 : Shape.Concatenates [S13, S13, S13] S39 0
  shapeCasts_S4x1024_S4x1024x1 : S4x1024.ShapeCasts S4x1024x1
  shapeCasts_S39_S1x1x39 : S39.ShapeCasts S1x1x39
  broadcasts_S4x1024x1_S4x1024x39 : S4x1024x1.Broadcasts S4x1024x39
  broadcasts_S1x1x39_S4x1024x39 : S1x1x39.Broadcasts S4x1024x39
  shapeCasts_S4x1024x39_S4096x39 : S4x1024x39.ShapeCasts S4096x39
  inb_S39x1024_S39x1024_0_0 : ∀ a, (![0, 0] : Fin 2 → Nat) a + S39x1024.size a ≤ S39x1024.size a
  h_S39x1024 : 0 < S39x1024.numel
  shapeCasts_S39x1024_S39x1024 : S39x1024.ShapeCasts S39x1024
  shapeCasts_S4096x1024_S4x1024x1024 : S4096x1024.ShapeCasts S4x1024x1024
  inb_S4x1024x1024_S4x1024x1024_0_0_0 : ∀ a, (![0, 0, 0] : Fin 3 → Nat) a + S4x1024x1024.size a ≤ S4x1024x1024.size a
  h_S4x1024x1024 : 0 < S4x1024x1024.numel
  dot_S4096x39_S39x1024_S4096x1024_1_0_0_1_n_n_wf : DotDims.WF S4096x39 S39x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024.size a ≤ S4x8192.size a
  hwx0_0 : ∀ i : grid0.Coords, EltTy.bits .i32 = 32 ∨ (Rect.block (s := S4x8192) S4x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x1024.size a ≤ S39x1024.size a
  hwx0_1 : ∀ i : grid0.Coords, EltTy.bits .bf16 = 32 ∨ (Rect.block (s := S39x1024) S39x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x8192x1024.size a
  hwx0_2 : ∀ i : grid0.Coords, EltTy.bits .f32 = 32 ∨ (Rect.block (s := S4x8192x1024) S4x1024x1024.size (cc0_transform_2 i) (hinb0_2 i)).WholeWords (EltTy.packing .f32)

variable [Facts₀]

def dot_S4096x39_S39x1024_S4096x1024_1_0_0_1_n_n : DotDims S4096x39 S39x1024 S4096x1024 where
  lhsContracting := [1]
  rhsContracting := [0]
  lhsNonContracting := [0]
  rhsNonContracting := [1]
  lhsBatch := []
  rhsBatch := []
  wf := dot_S4096x39_S39x1024_S4096x1024_1_0_0_1_n_n_wf

abbrev win0_0 : Pipeline.Window sig grid0 :=
  Pipeline.Window.ofSpec (Memref.whole main_arg0) S4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S39x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192 : Shape := ⟨2, ![4, 8192]⟩
abbrev S13x1024 : Shape := ⟨2, ![13, 1024]⟩
abbrev S13 : Shape := ⟨1, ![13]⟩
abbrev S4x8192x1 : Shape := ⟨3, ![4, 8192, 1]⟩
abbrev S1x1x13 : Shape := ⟨3, ![1, 1, 13]⟩
abbrev S4x8192x13 : Shape := ⟨3, ![4, 8192, 13]⟩
abbrev S_ : Shape := ⟨0, ![]⟩
abbrev S4x8192x1024 : Shape := ⟨3, ![4, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S13x1024, .f32⟩
  | .hbm, ⟨2, _⟩ => ⟨S13, .i32⟩
  | .hbm, ⟨3, _⟩ => ⟨S4x8192x1, .i32⟩
  | .hbm, ⟨4, _⟩ => ⟨S1x1x13, .i32⟩
  | .hbm, ⟨5, _⟩ => ⟨S4x8192x13, .i32⟩
  | .hbm, ⟨6, _⟩ => ⟨S4x8192x13, .i32⟩
  | .hbm, ⟨7, _⟩ => ⟨S4x8192x13, .i32⟩
  | .hbm, ⟨8, _⟩ => ⟨S_, .i32⟩
  | .hbm, ⟨9, _⟩ => ⟨S4x8192x13, .i32⟩
  | .hbm, ⟨10, _⟩ => ⟨S4x8192x13, .i32⟩
  | .hbm, ⟨11, _⟩ => ⟨S4x8192x13, .f32⟩
  | .hbm, ⟨12, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S4x8192_S4x8192x1_0_1 : S4x8192.BroadcastsInDim S4x8192x1 (![0, 1] : Fin 2 → Fin S4x8192x1.rank)
  bcast_S13_S1x1x13_2 : S13.BroadcastsInDim S1x1x13 (![2] : Fin 1 → Fin S1x1x13.rank)
  bcast_S4x8192x1_S4x8192x13_0_1_2 : S4x8192x1.BroadcastsInDim S4x8192x13 (![0, 1, 2] : Fin 3 → Fin S4x8192x13.rank)
  bcast_S1x1x13_S4x8192x13_0_1_2 : S1x1x13.BroadcastsInDim S4x8192x13 (![0, 1, 2] : Fin 3 → Fin S4x8192x13.rank)
  bcast_S_S4x8192x13 : S_.BroadcastsInDim S4x8192x13 (![] : Fin 0 → Fin S4x8192x13.rank)
  dot_S4x8192x13_S13x1024_S4x8192x1024_2_0_01_1_n_n_wf : DotDims.WF S4x8192x13 S13x1024 S4x8192x1024 [2] [0] [0, 1] [1] [] []

variable [Facts₀]

def dot_S4x8192x13_S13x1024_S4x8192x1024_2_0_01_1_n_n : DotDims S4x8192x13 S13x1024 S4x8192x1024 where
  lhsContracting := [2]
  rhsContracting := [0]
  lhsNonContracting := [0, 1]
  rhsNonContracting := [1]
  lhsBatch := []
  rhsBatch := []
  wf := dot_S4x8192x13_S13x1024_S4x8192x1024_2_0_01_1_n_n_wf

class Facts : Prop extends Facts₀ where

variable [Facts]
-- ==== Proof.KernelLaunched.lean ====
/-
  The frame of the program: its one pallas_call runs to the end on its grid of 8 points, nothing faults, and the two
  argument arrays end as launched.

  @main first derives the table the kernel multiplies by: the embedding rounded to the narrow format, what that
  rounding lost, rounded again, and what the second rounding lost, rounded a third time; the three 13 x 1024 pieces
  are stacked into one 39 x 1024 array. Then the call: at grid point t the pipeline stages the 4 x 1024 block of the
  integer array whose columns are t*1024 .. t*1024+1023, the whole 39 x 1024 table (fetched once, its block index
  never moves), and a 4 x 1024 x 1024 output block which it writes back after the body.

  The body loads the two input blocks whole, loads the output buffer (the old value of the swap, never used) and
  stores one value over the whole output buffer. So after the body the output buffer holds that one stored value,
  a pure function (`k0_pay1`) of the two blocks the body loaded, and the input buffers are untouched. This is stated once,
  for any contents of the buffers (`sound_kernel`), then instantiated at each grid point with the blocks the
  pipeline staged there (`sound_body`); the launch theorem then gives the run, whose post names every array of the
  call after the run and says every other buffer is as the call found it. The arguments are read off that post:
  the integer array is an input window's array, never written back; the embedding is staged by no window, and no
  host operation before the call writes either.

  Stated for any float family `F`: nothing here looks inside a float.
-/
import proofs.«420066_j13194139533906_3_alg».proof.Proof.Gen.Kernel.Launch
import proofs.«420066_j13194139533906_3_alg».proof.Proof.Gen.Kernel.Skeleton
import proofs.«420066_j13194139533906_3_alg».proof.Proof.Gen.Kernel.Points
import Idealize.ShloMosaic.Lib.Pipeline.FrameBody
import Idealize.ShloMosaic.Lib.Ring
import Idealize.ShloMosaic.Lib.Tactic

-- membership in a rectangle of these extents is checked coordinate by coordinate along the long axes
set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- What core `c`'s buffers hold when the call is entered: the launch contents after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the eight host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the derived pieces and the stacked table only: the integer argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-- And so is the embedding. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The integer window's staging buffer holds its block at every point, whatever the proof data, as long as its array
    is the one the call found and the body leaves the block in place. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table's staging buffer holds the whole table at every point: fetched at the first, and its block index
    never moves afterwards. -/
theorem before_tab_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments, read off the run's post -/

/-- From a run that ends with every array of the call named and every other buffer as the call found it, the frame:
    the integer array is the first window's, an input, so it ends as the call found it; the embedding is no window's
    array; and the call found both as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body -/

/-- The whole of each staging buffer: the three rectangles the body reads and writes through. -/
abbrev rX : Rect S4x1024 := Rect.unit (s := S4x1024) ![0, 0] S4x1024.size inb_S4x1024_S4x1024_0_0
abbrev rTab : Rect S39x1024 := Rect.unit (s := S39x1024) ![0, 0] S39x1024.size inb_S39x1024_S39x1024_0_0
abbrev rOut : Rect S4x1024x1024 := Rect.unit (s := S4x1024x1024) ![0, 0, 0] S4x1024x1024.size inb_S4x1024x1024_S4x1024x1024_0_0_0

/-- What the output buffer holds after the body, from the two input blocks: its one store, over the whole buffer. -/
def outBlock (x0 : Vec F S4x1024 .i32) (x1 : Vec F S39x1024 .bf16) : Vec F S4x1024x1024 .f32 :=
  View.canon [⟨rOut, k0_pay1 (View.ld x0 rX) (View.ld x1 rTab)⟩]

/-- The one store covers the buffer. -/
theorem cover_out (p0 : Vec F S4x1024x1024 .f32) (y : S4x1024x1024.Idx) :
    ∃ pc ∈ ([⟨rOut, p0⟩] : List (View.Piece (Elt F) S4x1024x1024 .f32)), y ∈ pc.1.set :=
  View.cover_of_tiled [⟨rOut, p0⟩] S4x1024x1024.size (by rfl) y

set_option maxHeartbeats 1000000 in
/-- The body on whole staging buffers, the inputs' at contents `x0`, `x1` and the output's at anything, runs to a state
    with the inputs' as they were and the output's at `outBlock x0 x1`. -/
theorem sound_kernel (c : Dev nD) (E : Set ℕ) (i : grid0.Coords) (arg1 : Memref sig .tc .vmem S4x1024 .i32) (harg1 : arg1.IsWhole) (arg2 : Memref sig .tc .vmem S39x1024 .bf16) (harg2 : arg2.IsWhole) (arg3 : Memref sig .tc .vmem S4x1024x1024 .f32) (harg3 : arg3.IsWhole)
    (x0 : Vec F S4x1024 .i32) (x1 : Vec F S39x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data of the call -/

/-- On core `c`: the arrays as the call finds them; after the body at point `t` each input buffer at its block and the
    output buffer at `outBlock` of the two blocks; the invariant is the rest of the core's scoped memory and its
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_tab (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_tab (c : Dev nD) (t : Fin cfg0.N) (d) : (dats m 0 c).before 1 t d = iblk m c 1 t :=
  before_tab_of m (dats m 0 c) (A_eq m c 1) (after_tab m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so `sound_kernel` applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_tab]
  rw [show (dats m 0 c).Φ t.succ = (dats m 0 c).Φ t.castSucc from rfl,
    show (dats m 0 c).owesAt () t.succ = (dats m 0 c).owesAt () t.castSucc from rfl,
    after_x, after_tab, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which takes
-- unfolding plain definitions in a metavariable's type
set_option backward.isDefEq.respectTransparency.types false in
/-- From any memory with zero counters every weakly fair execution of @main terminates, and every final state has each
    array of the call at what the proof data computes and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Launched

end
-- ==== Proof.KernelIdealLaunched.lean ====
/-
  The frame of the program: its one pallas_call runs to the end on its grid of 8 points, nothing faults, and the two
  argument arrays end as launched.

  @main first derives the table the kernel multiplies by: the embedding rounded to the narrow format, what that
  rounding lost, rounded again, and what the second rounding lost, rounded a third time; the three 13 x 1024 pieces
  are stacked into one 39 x 1024 array. Then the call: at grid point t the pipeline stages the 4 x 1024 block of the
  integer array whose columns are t*1024 .. t*1024+1023, the whole 39 x 1024 table (fetched once, its block index
  never moves), and a 4 x 1024 x 1024 output block which it writes back after the body.

  The body loads the two input blocks whole, loads the output buffer (the old value of the swap, never used) and
  stores one value over the whole output buffer. So after the body the output buffer holds that one stored value,
  a pure function (`k0_pay1`) of the two blocks the body loaded, and the input buffers are untouched. This is stated once,
  for any contents of the buffers (`sound_kernel`), then instantiated at each grid point with the blocks the
  pipeline staged there (`sound_body`); the launch theorem then gives the run, whose post names every array of the
  call after the run and says every other buffer is as the call found it. The arguments are read off that post:
  the integer array is an input window's array, never written back; the embedding is staged by no window, and no
  host operation before the call writes either.

  Stated for any float family `F`: nothing here looks inside a float.
-/
import proofs.«420066_j13194139533906_3_alg».proof.Proof.Gen.KernelIdeal.Launch
import proofs.«420066_j13194139533906_3_alg».proof.Proof.Gen.KernelIdeal.Skeleton
import proofs.«420066_j13194139533906_3_alg».proof.Proof.Gen.KernelIdeal.Points
import Idealize.ShloMosaic.Lib.Pipeline.FrameBody
import Idealize.ShloMosaic.Lib.Ring
import Idealize.ShloMosaic.Lib.Tactic

-- membership in a rectangle of these extents is checked coordinate by coordinate along the long axes
set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- What core `c`'s buffers hold when the call is entered: the launch contents after the eight host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the eight host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write the derived pieces and the stacked table only: the integer argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-- And so is the embedding. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, Finset.mem_singleton]
    repeat' apply And.intro
    all_goals exact StableHlo.devRef_ne_of_ne (by decide)))

/-! ## The blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The integer window's staging buffer holds its block at every point, whatever the proof data, as long as its array
    is the one the call found and the body leaves the block in place. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The table's staging buffer holds the whole table at every point: fetched at the first, and its block index
    never moves afterwards. -/
theorem before_tab_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments, read off the run's post -/

/-- From a run that ends with every array of the call named and every other buffer as the call found it, the frame:
    the integer array is the first window's, an input, so it ends as the call found it; the embedding is no window's
    array; and the call found both as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body -/

/-- The whole of each staging buffer: the three rectangles the body reads and writes through. -/
abbrev rX : Rect S4x1024 := Rect.unit (s := S4x1024) ![0, 0] S4x1024.size inb_S4x1024_S4x1024_0_0
abbrev rTab : Rect S39x1024 := Rect.unit (s := S39x1024) ![0, 0] S39x1024.size inb_S39x1024_S39x1024_0_0
abbrev rOut : Rect S4x1024x1024 := Rect.unit (s := S4x1024x1024) ![0, 0, 0] S4x1024x1024.size inb_S4x1024x1024_S4x1024x1024_0_0_0

/-- What the output buffer holds after the body, from the two input blocks: its one store, over the whole buffer. -/
def outBlock (x0 : Vec F S4x1024 .i32) (x1 : Vec F S39x1024 .bf16) : Vec F S4x1024x1024 .f32 :=
  View.canon [⟨rOut, k0_pay1 (View.ld x0 rX) (View.ld x1 rTab)⟩]

/-- The one store covers the buffer. -/
theorem cover_out (p0 : Vec F S4x1024x1024 .f32) (y : S4x1024x1024.Idx) :
    ∃ pc ∈ ([⟨rOut, p0⟩] : List (View.Piece (Elt F) S4x1024x1024 .f32)), y ∈ pc.1.set :=
  View.cover_of_tiled [⟨rOut, p0⟩] S4x1024x1024.size (by rfl) y

set_option maxHeartbeats 1000000 in
/-- The body on whole staging buffers, the inputs' at contents `x0`, `x1` and the output's at anything, runs to a state
    with the inputs' as they were and the output's at `outBlock x0 x1`. -/
theorem sound_kernel (c : Dev nD) (E : Set ℕ) (i : grid0.Coords) (arg1 : Memref sig .tc .vmem S4x1024 .i32) (harg1 : arg1.IsWhole) (arg2 : Memref sig .tc .vmem S39x1024 .bf16) (harg2 : arg2.IsWhole) (arg3 : Memref sig .tc .vmem S4x1024x1024 .f32) (harg3 : arg3.IsWhole)
    (x0 : Vec F S4x1024 .i32) (x1 : Vec F S39x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data of the call -/

/-- On core `c`: the arrays as the call finds them; after the body at point `t` each input buffer at its block and the
    output buffer at `outBlock` of the two blocks; the invariant is the rest of the core's scoped memory and its
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_tab (c : Dev nD) (t : Fin cfg0.N) : (dats m 0 c).after 1 t = iblk m c 1 t := by dsimp only [dats]
theorem after_out (c : Dev nD) (t : Fin cfg0.N) : (dats m 0 c).after 2 t = outBlock (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_tab (c : Dev nD) (t : Fin cfg0.N) (d) : (dats m 0 c).before 1 t d = iblk m c 1 t :=
  before_tab_of m (dats m 0 c) (A_eq m c 1) (after_tab m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so `sound_kernel` applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_tab]
  rw [show (dats m 0 c).Φ t.succ = (dats m 0 c).Φ t.castSucc from rfl,
    show (dats m 0 c).owesAt () t.succ = (dats m 0 c).owesAt () t.castSucc from rfl,
    after_x, after_tab, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which takes
-- unfolding plain definitions in a metavariable's type
set_option backward.isDefEq.respectTransparency.types false in
/-- From any memory with zero counters every weakly fair execution of @main terminates, and every final state has each
    array of the call at what the proof data computes and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Launched

end
-- ==== Proof.BitSum.lean ====
/-
  The function both programs compute, and the algebra that joins their two arrangements of it.

  For an integer word w and a bit position k < 13 let bit k w be ((w >> k) & 1) read as a real: 0 or 1 (the shift is
  the arithmetic one; for k < 32 every unit of the machine computes the same word). The reference's result is

      out[b, s, d] = sum over k < 13 of bit k (x[b, s]) * emb[k, d].

  The kernel multiplies the same 0/1 row, repeated three times, into a table of 39 rows: the embedding, then what
  rounding it to the narrow format lost, then what rounding THAT lost. Over the extended reals a change of format is the
  identity, so rows 13..25 are emb - emb and rows 26..38 are (emb - emb) - (emb - emb). On the extended reals
  a - a is 0 only for a FINITE a (at an infinity it is not), which is where the hypothesis that the embedding is
  finite is used; with it the last 26 rows are zero, every product with them is zero, and the 39-term sum is the
  13-term one.
-/
import Idealize.ShloMosaic.PureOps.Ideal
import Idealize.ShloMosaic.Lib.ValueIdx
import Idealize.ShloMosaic.Lib.KernelVsHost

noncomputable section

namespace Cert.BitSum

open Idealize.ShloMosaic Idealize.ShloMosaic.ValueIdx

/-- The integer argument, the embedding, and the result. -/
abbrev SX : Shape := ⟨2, ![4, 8192]⟩
abbrev SE : Shape := ⟨2, ![13, 1024]⟩
abbrev SO : Shape := ⟨3, ![4, 8192, 1024]⟩

/-- Bit `k` of the word `w` as an extended real, 0 or 1: the arithmetic shift right by `k`, masked by 1, read signed. -/
def bit (w : BitVec 32) (k : Fin 13) : EReal :=
  (((IntOp.andi (IntOp.shrsi .host w (BitVec.ofNat 32 k.val)) 1#32).toInt : ℝ) : EReal)

/-- The row of the integer argument an entry of the result reads, and the entry of the embedding's row `k` it reads. -/
abbrev rowOf (i : SO.Idx) : SX.Idx := ix2 ⟨(i 0).val, (i 0).isLt⟩ ⟨(i 1).val, (i 1).isLt⟩
abbrev embAt (k : Fin 13) (i : SO.Idx) : SE.Idx := ix2 k ⟨(i 2).val, (i 2).isLt⟩

/-- THE RESULT: entry (b, s, d) is the sum, over the 13 bit positions, of the bit of x[b, s] times emb[k, d]. -/
def G (x : SX.Idx → BitVec 32) (e : SE.Idx → EReal) : SO.Idx → EReal :=
  fun i => ∑ k : Fin 13, bit (x (rowOf i)) k * e (embAt k i)

/-- On the extended reals a finite number minus itself is zero. -/
theorem coe_sub_self (a : ℝ) : ((a : EReal) - (a : EReal)) = 0 := by
  rw [← EReal.coe_sub, sub_self, EReal.coe_zero]

/-- A sum over 39 positions of `f (q mod 13) * cat q`, when `cat` is `e` on its first 13 positions and zero on the other
    26, is the sum over 13 positions of `f k * e k`. -/
theorem sum_stacked (f e : Fin 13 → EReal) (cat : Fin 39 → EReal)
    (h0 : ∀ k : Fin 13, cat ⟨k.val, by omega⟩ = e k) (hz : ∀ q : Fin 39, 13 ≤ q.val → cat q = 0) :
    ∑ q : Fin 39, f ⟨q.val % 13, Nat.mod_lt _ (by decide)⟩ * cat q = ∑ k : Fin 13, f k * e k := by
  have split : ∑ q : Fin 39, f ⟨q.val % 13, Nat.mod_lt _ (by decide)⟩ * cat q
      = ∑ q : Fin (13 + 26), f ⟨q.val % 13, Nat.mod_lt _ (by decide)⟩ * cat ⟨q.val, q.isLt⟩ := rfl
  rw [split, Fin.sum_univ_add]
  have tail : ∑ i : Fin 26, f ⟨(Fin.natAdd 13 i).val % 13, Nat.mod_lt _ (by decide)⟩ * cat ⟨(Fin.natAdd 13 i).val, (Fin.natAdd 13 i).isLt⟩ = 0 :=
    Finset.sum_eq_zero fun i _ => by
      rw [hz ⟨(Fin.natAdd 13 i).val, (Fin.natAdd 13 i).isLt⟩ (by simp [Fin.natAdd]), mul_zero]
  rw [tail, add_zero]
  refine Finset.sum_congr rfl fun k _ => ?_
  have hk : (⟨(Fin.castAdd 26 k).val % 13, Nat.mod_lt _ (by decide)⟩ : Fin 13) = k :=
    Fin.ext (by simp [Nat.mod_eq_of_lt k.isLt])
  rw [hk]
  exact congrArg (f k * ·) (h0 k)

end Cert.BitSum

end
-- ==== Proof.KernelPayload.lean ====
/-
  What the kernel's body stores, read at an index.

  The body turns its 4 x 1024 block of integers into a 0/1 matrix with one row per entry (b, s) — row number
  b*1024 + s — and 39 columns: column q holds bit (q mod 13) of x[b, s], because the 13 shift amounts 0..12 are laid
  three times side by side. It multiplies that matrix into the 39 x 1024 table, from a zero accumulator, and views
  the 4096 x 1024 product as 4 x 1024 x 1024. So entry (b, s, d) of what it stores is

      sum over q < 39 of bit (q mod 13) (x[b, s]) * table[q, d].

  Each re-laying (a trailing unit axis added, a broadcast along it, rows flattened, the product unflattened) is read
  at an index by comparing row-major positions; the shift amounts by following a position back through the
  three-fold repetition to the counter 0..12; the product by the library's statement that a matrix product into a
  zero accumulator is the plain sum over the contracted axis.
-/
import proofs.«420066_j13194139533906_3_alg».proof.Proof.Gen.KernelIdeal.Skeleton
import proofs.«420066_j13194139533906_3_alg».proof.Proof.BitSum
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.BitSum Idealize.ShloMosaic Idealize.ShloMosaic.ValueIdx

variable {α : Type}

/-- Row b*1024 + s of the flattened matrices. -/
abbrev flatRow (b : Fin 4) (s : Fin 1024) : Fin 4096 := ⟨b.val * 1024 + s.val, by have := b.isLt; have := s.isLt; omega⟩

/-- Position `q` among the three copies of the 13 shift amounts is amount `q mod 13`. -/
abbrev amount (q : Fin 39) : Fin 13 := ⟨q.val % 13, Nat.mod_lt _ (by decide)⟩

/-! ## The re-layings -/

/-- The product, unflattened: entry (b, s, d) is entry (b*1024 + s, d). -/
theorem unflatten_apply (v : S4096x1024.Idx → α) (h : S4096x1024.ShapeCasts S4x1024x1024) (b : Fin 4) (s d : Fin 1024) :
    shapeCast S4x1024x1024 v h (ix3 b s d) = v (ix2 (flatRow b s) d) :=
  shapeCast_apply v h _ _ (by rw [Shape.rowMajor_val_two, Shape.rowMajor_val_three]; rfl)

/-- The 0/1 array, flattened: entry (b*1024 + s, q) is entry (b, s, q). -/
theorem flatten_apply (v : S4x1024x39.Idx → α) (h : S4x1024x39.ShapeCasts S4096x39) (b : Fin 4) (s : Fin 1024) (q : Fin 39) :
    shapeCast S4096x39 v h (ix2 (flatRow b s) q) = v (ix3 b s q) :=
  shapeCast_apply v h _ _ (by rw [Shape.rowMajor_val_two, Shape.rowMajor_val_three]; rfl)

/-- The integer block with a trailing unit axis, broadcast along it: entry (b, s, q) is x[b, s]. -/
theorem along_last_apply (v : S4x1024.Idx → α) (h1 : S4x1024.ShapeCasts S4x1024x1) (h2 : S4x1024x1.Broadcasts S4x1024x39)
    (b : Fin 4) (s : Fin 1024) (q : Fin 39) :
    broadcastTo S4x1024x39 (shapeCast S4x1024x1 v h1) h2 (ix3 b s q) = v (ix2 b s) := by
  rw [broadcastTo_apply _ h2 (ix3 b s q) (ix3 b s (0 : Fin 1)) (fun a => by
    match a with
    | ⟨0, _⟩ => show b.val = if (4 : Nat) = 1 then 0 else b.val; rw [if_neg (by decide)]
    | ⟨1, _⟩ => show s.val = if (1024 : Nat) = 1 then 0 else s.val; rw [if_neg (by decide)]
    | ⟨2, _⟩ => show 0 = if (1 : Nat) = 1 then 0 else q.val; rw [if_pos rfl])]
  exact shapeCast_apply v h1 _ _ (by
    rw [Shape.rowMajor_val_two, Shape.rowMajor_val_three]
    show b.val * 1024 + s.val = (b.val * 1024 + s.val) * 1 + 0
    omega)

/-- The 39 amounts with two leading unit axes, broadcast along them: entry (b, s, q) is amount q. -/
theorem along_first_apply (v : S39.Idx → α) (h1 : S39.ShapeCasts S1x1x39) (h2 : S1x1x39.Broadcasts S4x1024x39)
    (b : Fin 4) (s : Fin 1024) (q : Fin 39) :
    broadcastTo S4x1024x39 (shapeCast S1x1x39 v h1) h2 (ix3 b s q) = v (ix1 q) := by
  rw [broadcastTo_apply _ h2 (ix3 b s q) (ix3 (0 : Fin 1) (0 : Fin 1) q) (fun a => by
    match a with
    | ⟨0, _⟩ => show 0 = if (1 : Nat) = 1 then 0 else b.val; rw [if_pos rfl]
    | ⟨1, _⟩ => show 0 = if (1 : Nat) = 1 then 0 else s.val; rw [if_pos rfl]
    | ⟨2, _⟩ => show q.val = if (39 : Nat) = 1 then 0 else q.val; rw [if_neg (by decide)])]
  exact shapeCast_apply v h1 _ _ (by
    rw [Shape.rowMajor_val_one, Shape.rowMajor_val_three]
    show q.val = ((0 : Nat) * 1 + 0) * 39 + q.val
    omega)

/-- Three copies of one 13-vector laid end to end: position q reads the vector at q mod 13. -/
theorem thrice_apply (v : S13.Idx → α) (h : Shape.Concatenates [S13, S13, S13] S39 0) (q : Fin 39) :
    concatenate S39 0 [⟨S13, v⟩, ⟨S13, v⟩, ⟨S13, v⟩] h (ix1 q) = v (ix1 (amount q)) :=
  concatenate_replicate_apply (t := S39) (s₁ := S13) (0 : Fin 1) 3 v h rfl (ix1 q) (ix1 (amount q)) rfl
    (fun b hb => absurd (Fin.ext (by have hb1 : b.val < 1 := b.isLt; show b.val = 0; omega)) hb)

/-- The counter 0..12 along the second axis of a 1 x 13 array, viewed as a 13-vector: position r holds the word r. -/
theorem counter_apply (hi : S1x13.Iotas .tc 32 [1]) (hc : S1x13.ShapeCasts S13) (r : Fin 13) :
    shapeCast S13 (iota .tc S1x13 32 [1] hi) hc (ix1 r) = BitVec.ofNat 32 r.val := by
  rw [shapeCast_apply _ hc (ix1 r) (ix2 (0 : Fin 1) r) (by rw [Shape.rowMajor_val_one, Shape.rowMajor_val_two]; show 0 * 13 + r.val = r.val; omega)]
  exact iota_single_apply .tc S1x13 32 1 hi _

/-! ## The product -/

/-- The contraction's operand indices, axis by axis: the left operand is read at (row of the result, contracted
    position), the right at (contracted position, column of the result). -/
theorem lhs_row (i : S4096x1024.Idx) (q : dot_S4096x39_S39x1024_S4096x1024_1_0_0_1_n_n.contr.Idx) :
    (dot_S4096x39_S39x1024_S4096x1024_1_0_0_1_n_n.lhsIdx i q 0).val = (i 0).val := by
  unfold DotDims.lhsIdx
  rw [dif_neg (show ¬(0 : Fin S4096x39.rank) ∈ dot_S4096x39_S39x1024_S4096x1024_1_0_0_1_n_n.lhsBatch by decide), dif_pos (show (0 : Fin S4096x39.rank) ∈ dot_S4096x39_S39x1024_S4096x1024_1_0_0_1_n_n.lhsNonContracting by decide)]
  rfl
theorem lhs_col (i : S4096x1024.Idx) (q : dot_S4096x39_S39x1024_S4096x1024_1_0_0_1_n_n.contr.Idx) :
    (dot_S4096x39_S39x1024_S4096x1024_1_0_0_1_n_n.lhsIdx i q 1).val = (q ⟨0, by decide⟩).val :=
  dot_S4096x39_S39x1024_S4096x1024_1_0_0_1_n_n.lhsIdx_val_of_single rfl i q
theorem rhs_row (i : S4096x1024.Idx) (q : dot_S4096x39_S39x1024_S4096x1024_1_0_0_1_n_n.contr.Idx) :
    (dot_S4096x39_S39x1024_S4096x1024_1_0_0_1_n_n.rhsIdx i q 0).val = (q ⟨0, by decide⟩).val :=
  dot_S4096x39_S39x1024_S4096x1024_1_0_0_1_n_n.rhsIdx_val_of_single rfl i q
theorem rhs_col (i : S4096x1024.Idx) (q : dot_S4096x39_S39x1024_S4096x1024_1_0_0_1_n_n.contr.Idx) :
    (dot_S4096x39_S39x1024_S4096x1024_1_0_0_1_n_n.rhsIdx i q 1).val = (i 1).val := by
  unfold DotDims.rhsIdx
  rw [dif_neg (show ¬(1 : Fin S39x1024.rank) ∈ dot_S4096x39_S39x1024_S4096x1024_1_0_0_1_n_n.rhsBatch by decide), dif_pos (show (1 : Fin S39x1024.rank) ∈ dot_S4096x39_S39x1024_S4096x1024_1_0_0_1_n_n.rhsNonContracting by decide)]
  rfl

/-- The matrix product into a zero accumulator, at (r, d): the sum over the 39 contracted positions of left[r, q]
    times right[q, d]. -/
theorem product_apply (lhs : FVec Ideal S4096x39 .bf16) (rhs : FVec Ideal S39x1024 .bf16) (r : Fin 4096) (d : Fin 1024) :
    matmul dot_S4096x39_S39x1024_S4096x1024_1_0_0_1_n_n none lhs rhs (constant (F := Ideal) S4096x1024 .f32 0x00000000#32) (ix2 r d)
      = ∑ q : Fin 39, lhs (ix2 r q) * rhs (ix2 q d) := by
  simp only [matmul]
  rw [Ideal.matmul_constant_zero_apply, ← Equiv.sum_comp (ValueIdx.contrEquiv1 dot_S4096x39_S39x1024_S4096x1024_1_0_0_1_n_n 39 rfl rfl).symm]
  refine Finset.sum_congr rfl fun k _ => ?_
  have hk := ValueIdx.contrEquiv1_symm_val dot_S4096x39_S39x1024_S4096x1024_1_0_0_1_n_n 39 rfl rfl k
  have el : dot_S4096x39_S39x1024_S4096x1024_1_0_0_1_n_n.lhsIdx (ix2 r d) ((ValueIdx.contrEquiv1 dot_S4096x39_S39x1024_S4096x1024_1_0_0_1_n_n 39 rfl rfl).symm k) = ix2 r k := funext fun a => Fin.ext (by
    match a with
    | ⟨0, _⟩ => exact lhs_row _ _
    | ⟨1, _⟩ => exact (lhs_col _ _).trans hk)
  have er : dot_S4096x39_S39x1024_S4096x1024_1_0_0_1_n_n.rhsIdx (ix2 r d) ((ValueIdx.contrEquiv1 dot_S4096x39_S39x1024_S4096x1024_1_0_0_1_n_n 39 rfl rfl).symm k) = ix2 k d := funext fun a => Fin.ext (by
    match a with
    | ⟨0, _⟩ => exact (rhs_row _ _).trans hk
    | ⟨1, _⟩ => exact rhs_col _ _)
  rw [el, er]

/-! ## The stored value -/

section Pointwise
variable {s : Shape}
theorem andi_apply {w : Nat} (x y : IVec s w) (i : s.Idx) : andi x y i = IntOp.andi (x i) (y i) := rfl
theorem shrsi_apply {w : Nat} (x y : IVec s w) (i : s.Idx) : shrsi x y i = IntOp.shrsi .vector (x i) (y i) := rfl
end Pointwise

/-- ENTRY (b, s, d) OF WHAT THE BODY STORES, from the integer block `x0` and the table `x1` it loaded: the sum over the
    39 table rows of bit (q mod 13) of x0[b, s] times x1[q, d]. -/
theorem payload_apply (x0 : Vec Ideal S4x1024 .i32) (x1 : Vec Ideal S39x1024 .bf16) (b : Fin 4) (s d : Fin 1024) :
    k0_pay1 (F := Ideal) x0 x1 (ix3 b s d) = ∑ q : Fin 39, bit (x0 (ix2 b s)) (amount q) * x1 (ix2 q d) := by
  unfold k0_pay1
  dsimp only
  rw [unflatten_apply, product_apply]
  refine Finset.sum_congr rfl fun q _ => ?_
  rw [flatten_apply, shapeCast_self, sitofp_apply, andi_apply, shrsi_apply, broadcast_apply, along_last_apply,
    along_first_apply, thrice_apply, counter_apply, shrsi_unit .vector .host]
  rfl

end Cert.KernelIdeal.Payload

end
-- ==== Proof.LibNary3.lean ====
/-
  A host operation with THREE operand references, read at its result.

  `StableHlo.nary xs y f` writes `f (fun k => F (xs k))` at `y`: the operands' contents indexed by the position `k`.
  When the family of references is the literal `![x, a, b]`, the contents family is the literal
  `Fin.cons (F x) (Fin.cons (F a) (Fin.cons (F b) ·))`: each operand's contents at its own reference, so that the
  rewriting of the operands' contents can go on underneath. This is the three-operand companion of the library's
  four-operand statement; a three-piece `stablehlo.concatenate` prints as such an operation.
-/
import Idealize.ShloMosaic.Lib.StableHlo.Run

noncomputable section

namespace Idealize.ShloMosaic.StableHlo

variable {τ : Topo} {sig : RefSig} {Val : EltTy → Type} {x a b y : Ref sig .tc}

/-- The result of a three-operand operation at its own result reference: the function applied to the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.StackedTable.lean ====
/-
  The table the call multiplies by, as the call finds it.

  Before the call @main computes, from the embedding e: hi = e rounded to the narrow format; r1 = e - hi (hi widened
  back); lo = r1 rounded; r2 = r1 - lo; res = r2 rounded; and stacks hi, lo, res, 13 rows each, into 39 rows. Reading
  the buffer of the stacked table after those eight operations gives exactly that term of the launched embedding (each
  operation's result at its own buffer is its function of its operands' buffers; the three-operand stacking by the
  three-reference result lemma).

  Over the extended reals rounding and widening are the identity, so row k of the table is e[k], row 13 + k is
  e[k] - e[k], and row 26 + k is (e[k] - e[k]) - (e[k] - e[k]). Where e is finite both differences are zero.
-/
import proofs.«420066_j13194139533906_3_alg».proof.Proof.KernelIdealLaunched
import proofs.«420066_j13194139533906_3_alg».proof.Proof.LibNary3
import proofs.«420066_j13194139533906_3_alg».proof.Proof.BitSum
import Idealize.ShloMosaic.Lib.Pipeline.Value
import Idealize.ShloMosaic.Lib.ValueIdx
import Idealize.ShloMosaic.Lib.StableHlo.Run

noncomputable section

namespace Cert.KernelIdeal.Stacked

open Cert.KernelIdeal Cert.KernelIdeal.Gen Cert.KernelIdeal.Launched Cert.BitSum
open Idealize.ShloMosaic Idealize.ShloMosaic.TcCoe Idealize.ShloMosaic.ValueIdx Idealize.SL.Sem

variable {F : FTy → Type} [FloatOps F]

/-- The embedding rounded to the narrow format. -/
def hiOf (e : FVec F S13x1024 .f32) : FVec F S13x1024 .bf16 := truncf .bf16 e bitsLt_bf16_f32
/-- What that rounding lost. -/
def rem1 (e : FVec F S13x1024 .f32) : FVec F S13x1024 .f32 := subf e (extf .f32 (hiOf e) bitsLt_bf16_f32)
/-- The loss, rounded. -/
def loOf (e : FVec F S13x1024 .f32) : FVec F S13x1024 .bf16 := truncf .bf16 (rem1 e) bitsLt_bf16_f32
/-- What the second rounding lost, rounded. -/
def resOf (e : FVec F S13x1024 .f32) : FVec F S13x1024 .bf16 :=
  truncf .bf16 (subf (rem1 e) (extf .f32 (loOf e) bitsLt_bf16_f32)) bitsLt_bf16_f32

/-- The stacked table as a function of the embedding: the three pieces laid end to end along the rows. -/
def stacked (e : FVec F S13x1024 .f32) : FVec F S39x1024 .bf16 :=
  concatenate S39x1024 0 [⟨S13x1024, hiOf e⟩, ⟨S13x1024, loOf e⟩, ⟨S13x1024, resOf e⟩]
    concatenates_S13x1024_S13x1024_S13x1024_S39x1024_d0

variable (m : (ℓ : Loc nD τ sig) → Buf (Elt F) ℓ)

/-- What the call finds in the table's buffer is `stacked` of the launched embedding. -/
theorem V_table (c : Dev nD) :
    (V m c main_v7 : S39x1024.Idx → Elt F .bf16) = stacked (m ((c : Thread nD τ).loc main_arg1)) := by
  dsimp only [V, hostOps0]
  simp only [StableHlo.after_cons, StableHlo.after_nil]
  repeat (first
    | rw [StableHlo.nary3_result] | rw [StableHlo.unary_result] | rw [StableHlo.binary_result]
    | (rw [StableHlo.unary_result_ne]; rotate_left; decide)
    | (rw [StableHlo.binary_result_ne]; rotate_left; decide)
    | (rw [StableHlo.nary_result_ne]; rotate_left; decide))
  rfl

/-! ## The rows, over the extended reals -/

/-- Off the stacking axis an entry keeps its column. -/
theorem keeps_col (j : S39x1024.Idx) (i : S13x1024.Idx) (h : (i 1).val = (j 1).val) :
    ∀ b : Fin S13x1024.rank, b.cast (rfl : S13x1024.rank = S39x1024.rank) ≠ (0 : Fin 2) → (i b).val = (j (b.cast rfl)).val :=
  fun b hb => by match b with | ⟨0, _⟩ => exact absurd rfl hb | ⟨1, _⟩ => exact h

/-- Rows 0..12 are the embedding. -/
theorem stacked_top (e : FVec Ideal S13x1024 .f32) (k : Fin 13) (d : Fin 1024) :
    stacked e (ix2 (⟨k.val, by omega⟩ : Fin 39) d) = e (ix2 k d) := by
  unfold stacked
  refine (concatenate_apply_piece (t := S39x1024) (0 : Fin 2) _ _ (ix2 (⟨k.val, by omega⟩ : Fin 39) d) 0 (by show 0 < 3; decide) S13x1024 (hiOf e) rfl rfl 0 rfl (ix2 k d)
    (keeps_col _ _ rfl) (by show 0 + k.val = k.val; omega)).trans ?_
  rfl

/-- Rows 13..25 are the embedding minus itself. -/
theorem stacked_mid (e : FVec Ideal S13x1024 .f32) (k : Fin 13) (d : Fin 1024) :
    stacked e (ix2 (⟨13 + k.val, by omega⟩ : Fin 39) d) = e (ix2 k d) - e (ix2 k d) := by
  unfold stacked
  refine (concatenate_apply_piece (t := S39x1024) (0 : Fin 2) _ _ (ix2 (⟨13 + k.val, by omega⟩ : Fin 39) d) 1 (by show 1 < 3; decide) S13x1024 (loOf e) rfl rfl 13 rfl (ix2 k d)
    (keeps_col _ _ rfl) rfl).trans ?_
  rfl

/-- Rows 26..38 are that difference minus itself. -/
theorem stacked_low (e : FVec Ideal S13x1024 .f32) (k : Fin 13) (d : Fin 1024) :
    stacked e (ix2 (⟨26 + k.val, by omega⟩ : Fin 39) d) = (e (ix2 k d) - e (ix2 k d)) - (e (ix2 k d) - e (ix2 k d)) := by
  unfold stacked
  refine (concatenate_apply_piece (t := S39x1024) (0 : Fin 2) _ _ (ix2 (⟨26 + k.val, by omega⟩ : Fin 39) d) 2 (by show 2 < 3; decide) S13x1024 (resOf e) rfl rfl 26 rfl (ix2 k d)
    (keeps_col _ _ rfl) rfl).trans ?_
  rfl

/-- Where the embedding is finite, rows 13..38 of the table are zero. -/
theorem stacked_zero (e : FVec Ideal S13x1024 .f32) (hfin : ∀ i, ∃ a : ℝ, e i = (a : EReal)) (q : Fin 39) (hq : 13 ≤ q.val)
    (d : Fin 1024) : stacked e (ix2 q d) = 0 := by
  by_cases h : q.val < 26
  · have hq' : q = (⟨13 + (q.val - 13), by omega⟩ : Fin 39) := Fin.ext (by show q.val = 13 + (q.val - 13); omega)
    rw [hq', stacked_mid e ⟨q.val - 13, by omega⟩ d]
    obtain ⟨a, ha⟩ := hfin (ix2 ⟨q.val - 13, by omega⟩ d)
    rw [ha, coe_sub_self]
  · have hlt := q.isLt
    have hq' : q = (⟨26 + (q.val - 26), by omega⟩ : Fin 39) := Fin.ext (by show q.val = 26 + (q.val - 26); omega)
    rw [hq', stacked_low e ⟨q.val - 26, by omega⟩ d]
    obtain ⟨a, ha⟩ := hfin (ix2 ⟨q.val - 26, by omega⟩ d)
    rw [ha, coe_sub_self]
    simp

end Cert.KernelIdeal.Stacked

end
-- ==== Proof.KernelResult.lean ====
/-
  The kernel's result array after the run is the bit sum of its two arguments, where the embedding is finite.

  Grid point t handles columns t*1024 .. t*1024 + 1023 of the integer array: its integer block at (b, s) is
  x[b, t*1024 + s], its table block is the whole stacked table, and it writes back the 4 x 1024 x 1024 block whose
  middle coordinate starts at t*1024. What the body stores at (b, s, d) is the 39-term sum of bits of x[b, t*1024 + s]
  against column d of the table; the table's first 13 rows are the embedding and, the embedding being finite, its other
  26 rows are zero; so the stored value is the 13-term sum, entry (b, t*1024 + s, d) of G. The eight blocks tile the
  result array (entry i lies in the block of point i_1 / 1024), so the array ends holding G everywhere.
-/
import proofs.«420066_j13194139533906_3_alg».proof.Proof.KernelIdealLaunched
import proofs.«420066_j13194139533906_3_alg».proof.Proof.KernelPayload
import proofs.«420066_j13194139533906_3_alg».proof.Proof.StackedTable
import proofs.«420066_j13194139533906_3_alg».proof.Proof.BitSum
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Launched Cert.KernelIdeal.Payload Cert.KernelIdeal.Stacked Cert.BitSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One grid point -/

/-- What the body stores, when the integer block is the t-th column block of `X` and the table is `E` on its first 13
    rows and zero below: entry (b, t*1024 + s, d) of `G X E`. -/
theorem block_value (x0 : Vec Ideal S4x1024 .i32) (x1 : Vec Ideal S39x1024 .bf16) (X : SX.Idx → BitVec 32) (E : SE.Idx → EReal)
    (t : Fin 8)
    (hx : ∀ (b : Fin 4) (s : Fin 1024), x0 (ix2 b s) = X (ix2 b (⟨t.val * 1024 + s.val, by omega⟩ : Fin 8192)))
    (h1 : ∀ (k : Fin 13) (d : Fin 1024), x1 (ix2 (⟨k.val, by omega⟩ : Fin 39) d) = E (ix2 k d))
    (hz : ∀ (q : Fin 39) (d : Fin 1024), 13 ≤ q.val → x1 (ix2 q d) = 0)
    (b : Fin 4) (s d : Fin 1024) :
    k0_pay1 (F := Ideal) x0 x1 (ix3 b s d) = G X E (ix3 b (⟨t.val * 1024 + s.val, by omega⟩ : Fin 8192) d) := by
  rw [payload_apply, hx]
  unfold G
  exact sum_stacked (fun k => bit (X (ix2 b (⟨t.val * 1024 + s.val, by omega⟩ : Fin 8192))) k) (fun k => E (ix2 k d))
    (fun q => x1 (ix2 q d)) (fun k => h1 k d) (fun q hq => hz q d hq)

/-! ## The windows' block indices, decided over the grid -/

theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

/-- The table's block is the whole table: an index of the block is the same index of the array. -/
theorem tab_emb (t : Fin cfg0.N) (q : Fin 39) (d : Fin 1024) :
    ((cfg0.win 1).blk t).view.emb (ix2 q d) = ix2 q d := by
  obtain ⟨e0, e1, e2, e3, e4, e5, e6⟩ := idx_facts t
  funext a; apply Fin.ext
  match a with
  | ⟨0, _⟩ => show win0_1.index t (0 : Fin 2) * 39 + 1 * q.val = q.val; omega
  | ⟨1, _⟩ => show win0_1.index t (1 : Fin 2) * 1024 + 1 * d.val = d.val; omega

/-- WHAT POINT `t` WRITES BACK is block `t` of `G` of the two arguments as launched. -/
theorem flushed_eq (hfin : ∀ (c : Dev nD) i, ∃ a : ℝ, m ((c : Thread nD τ).loc main_arg1) i = (a : EReal)) (c : Dev nD) (t : Fin cfg0.N) :
    (dats m 0 c).flushed 2 t
      = ((cfg0.win 2).blk t).view.read (Elt Ideal) (G (m ((c : Thread nD τ).loc main_arg0)) (m ((c : Thread nD τ).loc main_arg1))) := by
  show (cfg0.win 2).cut (grid0.coords t) ((dats m 0 c).after 2 t) = _
  rw [after_out]
  unfold outBlock
  rw [View.canon_unit_zero hz3]
  simp only [View.ld_unit_zero (S := S4x1024) hz2, View.ld_unit_zero (S := S39x1024) hz2]
  obtain ⟨e0, e1, e2, e3, e4, e5, e6⟩ := idx_facts t
  have ht : t.val < 8 := lt_of_lt_of_eq t.isLt N_0
  funext j
  obtain ⟨b, s, d, rfl⟩ : ∃ (b : Fin 4) (s d : Fin 1024), j = ix3 b s d := ⟨j 0, j 1, j 2, eq_ix3 j⟩
  show k0_pay1 (F := Ideal) (iblk m c 0 t) (iblk m c 1 t) (ix3 b s d)
    = G (m ((c : Thread nD τ).loc main_arg0)) (m ((c : Thread nD τ).loc main_arg1)) (((cfg0.win 2).blk t).view.emb (ix3 b s d))
  refine (block_value (iblk m c 0 t) (iblk m c 1 t) (m ((c : Thread nD τ).loc main_arg0)) (m ((c : Thread nD τ).loc main_arg1))
    ⟨t.val, ht⟩ ?_ ?_ ?_ b s d).trans ?_
  · intro b s
    show V m c main_arg0 (((cfg0.win 0).blk t).view.emb (ix2 b s)) = _
    rw [V_main_arg0]
    refine congrArg _ (funext fun a => Fin.ext ?_)
    match a with
    | ⟨0, _⟩ => show win0_0.index t (0 : Fin 2) * 4 + 1 * b.val = b.val; omega
    | ⟨1, _⟩ => show win0_0.index t (1 : Fin 2) * 1024 + 1 * s.val = t.val * 1024 + s.val; omega
  · intro k d
    show V m c main_v7 (((cfg0.win 1).blk t).view.emb (ix2 (⟨k.val, by omega⟩ : Fin 39) d)) = _
    rw [tab_emb, V_table, stacked_top]
  · intro q d hq
    show V m c main_v7 (((cfg0.win 1).blk t).view.emb (ix2 q d)) = _
    rw [tab_emb, V_table]
    exact stacked_zero _ (hfin c) q hq d
  · refine congrArg _ (funext fun a => Fin.ext ?_)
    match a with
    | ⟨0, _⟩ => show b.val = win0_2.index t (0 : Fin 3) * 4 + 1 * b.val; omega
    | ⟨1, _⟩ => show t.val * 1024 + s.val = win0_2.index t (1 : Fin 3) * 1024 + 1 * s.val; omega
    | ⟨2, _⟩ => show d.val = win0_2.index t (2 : Fin 3) * 1024 + 1 * d.val; omega

/-! ## The blocks tile the array -/

/-- An index of the array is in point `t`'s block iff each coordinate is in the block's range on its axis. -/
theorem mem_blk (t : Fin cfg0.N) (i : S4x8192x1024.Idx) :
    i ∈ ((cfg0.win 2).blk t).view.set ↔ ∀ a : Fin 3, win0_2.index t a * S4x1024x1024.size a ≤ (i a).val ∧ (i a).val < win0_2.index t a * S4x1024x1024.size a + S4x1024x1024.size a := by
  show i ∈ ((View.whole main_v8).slice (win0_2.rect t)).set ↔ _
  rw [View.set_slice_whole, Rect.mem_set_unit]
  exact Iff.rfl

/-- Every index of the result array is in the block of the point its middle coordinate over 1024 names. -/
theorem cover (i : S4x8192x1024.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 1024 := (i 2).isLt
  have hN : (i 1).val / 1024 < cfg0.N := lt_of_lt_of_eq (by omega : (i 1).val / 1024 < 8) N_0.symm
  obtain ⟨e0, e1, e2, e3, e4, e5, e6⟩ := idx_facts ⟨(i 1).val / 1024, hN⟩
  have e5' : win0_2.index ⟨(i 1).val / 1024, hN⟩ (1 : Fin 3) = (i 1).val / 1024 := e5
  refine ⟨⟨(i 1).val / 1024, hN⟩, flush0_2 _, ?_⟩
  rw [mem_blk]
  intro a
  match a with
  | ⟨0, _⟩ => show win0_2.index ⟨(i 1).val / 1024, hN⟩ (0 : Fin 3) * 4 ≤ (i 0).val ∧ (i 0).val < win0_2.index ⟨(i 1).val / 1024, hN⟩ (0 : Fin 3) * 4 + 4; omega
  | ⟨1, _⟩ => show win0_2.index ⟨(i 1).val / 1024, hN⟩ (1 : Fin 3) * 1024 ≤ (i 1).val ∧ (i 1).val < win0_2.index ⟨(i 1).val / 1024, hN⟩ (1 : Fin 3) * 1024 + 1024; omega
  | ⟨2, _⟩ => show win0_2.index ⟨(i 1).val / 1024, hN⟩ (2 : Fin 3) * 1024 ≤ (i 2).val ∧ (i 2).val < win0_2.index ⟨(i 1).val / 1024, hN⟩ (2 : Fin 3) * 1024 + 1024; omega

/-! ## The array, and the run -/

/-- THE RESULT ARRAY after the run is `G` of the two arguments. -/
theorem final (hfin : ∀ (c : Dev nD) i, ∃ a : ℝ, m ((c : Thread nD τ).loc main_arg1) i = (a : EReal)) (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m hfin c t) cover

/-- Every weakly fair execution of the kernel's program ends with the result array at `G` of the arguments and the
    arguments as launched. -/
theorem run (hfin : ∀ (c : Dev nD) i, ∃ a : ℝ, m ((c : Thread nD τ).loc main_arg1) i = (a : EReal)) :
    θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hfin c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Result

end
-- ==== Proof.RefIsBitSum.lean ====
/-
  The reference computes the bit sum.

  Its @main builds, for every entry (b, s) of the integer array and every k < 13, the word (x[b,s] >> k) & 1 — the
  integer array broadcast along a new last axis, the positions 0..12 broadcast along the first two, an arithmetic
  shift, a mask by the constant 1 —, converts it to a float and contracts the last axis against the embedding's
  first. Read one operation at a time at an index, entry (b, s, d) of the result is the sum over k of that word, read as
  a real, times emb[k, d]: the function `G`.
-/
import proofs.«420066_j13194139533906_3_alg».proof.Proof.Gen.ReferenceIdeal.Read
import proofs.«420066_j13194139533906_3_alg».proof.Proof.BitSum

noncomputable section

namespace Cert.ReferenceIdeal.BitSum

open Cert.ReferenceIdeal Cert.ReferenceIdeal.Read Cert.BitSum Idealize.ShloMosaic Idealize.ShloMosaic.ValueIdx

/-- Following an entry of the shifted array back through the two broadcasts of the integer array lands on its row. -/
theorem row_idx (i : S4x8192x1024.Idx) (k : Fin 13) : idx_main_v1 (idx_main_v3 (lidx_main_v9 i k)) = rowOf i :=
  funext fun a => Fin.ext (by match a with | ⟨0, _⟩ => rfl | ⟨1, _⟩ => rfl)

/-- Following it back through the two broadcasts of the positions lands on position `k`. -/
theorem pos_idx (i : S4x8192x1024.Idx) (k : Fin 13) : ((idx_main_v2 (idx_main_v4 (lidx_main_v9 i k))) 0).val = k.val := rfl

/-- The embedding is read at row `k`, column `d`. -/
theorem emb_idx (i : S4x8192x1024.Idx) (k : Fin 13) : ridx_main_v9 i k = embAt k i :=
  funext fun a => Fin.ext (by match a with | ⟨0, _⟩ => rfl | ⟨1, _⟩ => rfl)

/-- The float the reference contracts, at (b, s, k): bit `k` of x[b, s]. -/
theorem mask_apply (x0 : (⟨S4x8192, .i32⟩ : BufTy).Contents (Elt Ideal)) (i : S4x8192x1024.Idx) (k : Fin 13) :
    val_main_v8 (F := Ideal) x0 (lidx_main_v9 i k) = bit (x0 (rowOf i)) k := by
  rw [val_main_v8_apply, val_main_v7_apply, val_main_v5_apply, val_main_v3_apply, val_main_v1_apply, val_main_v4_apply,
    val_main_v2_apply, val_main_v0_apply, val_main_v6_apply, val_main_c_apply, row_idx, pos_idx]
  rfl

/-- THE REFERENCE'S RESULT is `G` of its two arguments. -/
theorem result_eq (x0 : (⟨S4x8192, .i32⟩ : BufTy).Contents (Elt Ideal)) (x1 : (⟨S13x1024, .f32⟩ : BufTy).Contents (Elt Ideal)) :
    val_main_v9 (F := Ideal) x0 x1 = G x0 x1 := by
  funext i
  rw [val_main_v9_apply]
  exact Finset.sum_congr rfl fun k _ => by rw [mask_apply, emb_idx]

end Cert.ReferenceIdeal.BitSum

end
-- ==== Proof.FiniteEmbedding.lean ====
/-
  The precondition says every entry of the embedding is a real number.

  It is printed as: |e| < +infinity at every entry, all of those conjoined (a reduction by "and" to a single bit),
  and that bit is 1. A conjunction that is 1 had a 1 at every entry; over the extended reals |e| = max(e, -e), and the
  comparison bit is 1 exactly when max(e, -e) < +infinity, which excludes both infinities: at +infinity the maximum is
  +infinity, at -infinity its negation is. What is neither infinity is a real.
-/
import proofs.«420066_j13194139533906_3_alg».proof.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

/-- The result of the conjunction has one index. -/
instance : Subsingleton S_.Idx := ⟨fun a b => funext fun d => d.elim0⟩

/-- Under the precondition every entry of the embedding is a real. -/
theorem real_of_pre [Facts] (x : IVec S4x8192 32) (e : FVec Ideal S13x1024 .f32)
    (h : fn (F := Ideal) x e = fun _ => 1#1) (i : S13x1024.Idx) : ∃ a : ℝ, e i = (a : EReal) := by
  have h0 := congrFun h ValueIdx.ix0
  dsimp only [fn] at h0
  have hi := Host.reduce_andi_all _ _ _ _ _ h0 i
  have htop : Ideal.ofBits .f32 0x7F800000#32 = ⊤ := by simp [Ideal.ofBits, Ideal.ieee]
  have hbit : Ideal.cmp .olt (max (e i) (-(e i))) (Ideal.ofBits .f32 0x7F800000#32) = 1#1 := hi
  rw [htop] at hbit
  have hlt : max (e i) (-(e i)) < (⊤ : EReal) := by
    by_contra hn
    simp [Ideal.cmp, hn] at hbit
  have hne_top : e i ≠ ⊤ := fun ht => by rw [ht] at hlt; simp at hlt
  have hne_bot : e i ≠ ⊥ := fun hb => by rw [hb] at hlt; simp at hlt
  exact ⟨(e i).toReal, (EReal.coe_toReal hne_top hne_bot).symm⟩

end Cert.Pre_finite_inputs.Finite

end
-- ==== Proof.lean ====
/-
  A sum of embedding rows selected by the bits of an integer, computed two ways, is one function.

  The reference: for x : int32[4, 8192] and emb : float32[13, 1024],

      out[b, s, d] = sum over k < 13 of bit k (x[b, s]) * emb[k, d],        bit k w = (w >> k) & 1 as a float,

  a contraction of a 0/1 array against the embedding. The kernel first splits the embedding into three narrow-format
  pieces — the embedding rounded, the rounding's remainder rounded, that rounding's remainder rounded — stacks them into
  a 39-row table, and in one pallas_call over 8 column blocks multiplies the 0/1 rows, repeated three times, into the
  table. Over the extended reals a change of format is the identity, so the three pieces are emb, emb - emb and
  (emb - emb) - (emb - emb); the precondition makes every entry of emb a real, for which a - a = 0 (at an infinity it
  would not be), so the last 26 rows of the table vanish and the kernel's 39-term sum is the reference's 13-term one.
  The shift is arithmetic on both sides and the amounts are below 32, where every unit of the machine computes the
  same word, so no range of x is needed.

  The modules: BitSum (the function G and the algebra), RefIsBitSum (the reference's run, read one operation at a time,
  is G), FiniteEmbedding (the precondition gives reals), KernelLaunched / KernelIdealLaunched (the program runs to the
  end and leaves its arguments alone: the frame, for the word-level program and for its idealization), StackedTable
  (what the call finds in the table's buffer), KernelPayload (what the body stores, at an index), KernelResult (block by
  block, then the whole result array, is G). LibNary3 is the one general fact: a host operation over three operand
  references read at its result.

  The idealization rewrote no operation of the kernel, so that conjunct is trivial.
-/
import proofs.«420066_j13194139533906_3_alg».proof.Defs
import proofs.«420066_j13194139533906_3_alg».proof.Proof.Gen.Kernel
import proofs.«420066_j13194139533906_3_alg».proof.Proof.Gen.KernelIdeal
import proofs.«420066_j13194139533906_3_alg».proof.Proof.Gen.ReferenceIdeal
import proofs.«420066_j13194139533906_3_alg».proof.Proof.Gen.Pre_finite_inputs
import proofs.«420066_j13194139533906_3_alg».proof.Proof.Gen.ReferenceIdeal.Run
import proofs.«420066_j13194139533906_3_alg».proof.Proof.Gen.ReferenceIdeal.Read
import proofs.«420066_j13194139533906_3_alg».proof.Proof.KernelLaunched
import proofs.«420066_j13194139533906_3_alg».proof.Proof.KernelIdealLaunched
import proofs.«420066_j13194139533906_3_alg».proof.Proof.KernelResult
import proofs.«420066_j13194139533906_3_alg».proof.Proof.RefIsBitSum
import proofs.«420066_j13194139533906_3_alg».proof.Proof.FiniteEmbedding
import Idealize.ShloMosaic.Adequacy
import Idealize.ShloMosaic.Init

noncomputable section

namespace Cert.Proof

open Idealize.ShloMosaic Idealize.ShloMosaic.TcCoe Idealize.SL.Sem

/-- The word-level program runs to the end and its arguments end as launched. -/
theorem frame_kernel : Cert.frame_Kernel := fun m ρ _ => Cert.Kernel.Launched.frame m ρ

/-- So does its idealization. -/
theorem frame_kernelIdeal : Cert.frame_KernelIdeal := fun m ρ _ => Cert.KernelIdeal.Launched.frame m ρ

/-- The reference is host operations only: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories agreeing on the two arguments, the embedding finite: the kernel's result array ends at `G` of the
    arguments (block by block, through the stacked table), the reference's at its contraction, which is `G` too. -/
theorem algebraic : Cert.algebraic_KernelIdeal_ReferenceIdeal := by
  intro m ρ m' ρ' hpre hagree
  have hfin : ∀ (c : Dev Cert.KernelIdeal.nD) i, ∃ a : ℝ,
      m ((c : Thread Cert.KernelIdeal.nD Cert.KernelIdeal.τ).loc Cert.KernelIdeal.main_arg1) i = (a : EReal) :=
    fun c i => Cert.Pre_finite_inputs.Finite.real_of_pre _ _ (hpre c) i
  refine ⟨_, Cert.KernelIdeal.Result.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.BitSum.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
